-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x1 : Shape := ⟨2, ![1, 1]⟩
abbrev S8192x128 : Shape := ⟨2, ![8192, 128]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S1x1, .f32⟩
  | .hbm, ⟨5, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S1x1, .f32⟩
  | .local _ .vmem, ⟨5, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v35 : BitVec 1 := Scalar.cmpi .eq arg0 c31_i32
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .i32 = 32 ∨ (Rect.block (s := S262144x128) S8192x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S_, .f32⟩
  | .hbm, ⟨3, _⟩ => ⟨S33554432, .f32⟩
  | .hbm, ⟨4, _⟩ => ⟨S33554432, .f32⟩
  | .hbm, ⟨5, _⟩ => ⟨S33554432, .f32⟩
  | .hbm, ⟨6, _⟩ => ⟨S33554432, .f32⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S33554432, .f32⟩
  | .hbm, ⟨12, _⟩ => ⟨S33554432, .f32⟩
  | .hbm, ⟨13, _⟩ => ⟨S_, .f32⟩
  | .hbm, ⟨14, _⟩ => ⟨S33554432, .f32⟩
  | .hbm, ⟨15, _⟩ => ⟨S33554432, .f32⟩
  | .hbm, ⟨16, _⟩ => ⟨S33554432, .f32⟩
  | .hbm, ⟨17, _⟩ => ⟨S33554432, .f32⟩
  | .hbm, ⟨18, _⟩ => ⟨S_, .f32⟩
  | .hbm, ⟨19, _⟩ => ⟨S33554432, .f32⟩
  | .hbm, ⟨20, _⟩ => ⟨S33554432, .f32⟩
  | .hbm, ⟨21, _⟩ => ⟨S_, .i32⟩
  | .hbm, ⟨22, _⟩ => ⟨S33554432, .i32⟩
  | .hbm, ⟨23, _⟩ => ⟨S33554432, .i1⟩
  | .hbm, ⟨24, _⟩ => ⟨S33554432, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Pieces.lean ====
/-
  What one grid point of the kernel leaves behind, read as values.

  The kernel keeps one number, the running total, in a [1, 1] scratch cell carried from point to point. At the
  first point it stores zero there and then adds the slab's total to what it reads back; at every later point it
  adds the slab's total to what the point before left; at the last point it also stores the total divided by
  2^25 into the [1, 1] output block. Each of these is the payload of one covering store, whose loads read whole
  buffers (or read back the store made just before).
-/
import proofs.«165996_j76433237999935_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Carried

open Cert.KernelIdeal Cert.KernelIdeal.Gen

variable {F : FTy → Type} [FloatOps F]

theorem zero_offsets : (![0, 0] : Fin 2 → Nat) = fun _ => 0 := funext fun a => by fin_cases a <;> rfl

/-- The first point: the cell is reset to zero, read back, and the slab's total added. -/
theorem cell_first (c : Dev nD) (i : grid0.Coords) (a1 : Memref sig .tc .vmem S8192x128 .f32) (h1 : a1.IsWhole)
    (a2 : Memref sig .tc .vmem S8192x128 .i32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S8192x128 .f32) (x1 : Vec F S8192x128 .i32) :
    sout0_A_0 c i a1 h1 a2 h2 a3 h3 a4 h4 hc0 hc1 x0 x1 = k0_pay3 x0 x1 (k0_pay2 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) zero_offsets, View.readCov_unit_zero (S := S1x1) _ zero_offsets]
  simp only [View.readAt_eq_ld, h1.read_unread, h2.read_unread, View.ld_unit_zero (S := S8192x128) zero_offsets,
    View.ld_unit_zero (S := S1x1) zero_offsets]

/-- A middle point: the slab's total added to what the cell held. -/
theorem cell_middle (c : Dev nD) (i : grid0.Coords) (a1 : Memref sig .tc .vmem S8192x128 .f32) (h1 : a1.IsWhole)
    (a2 : Memref sig .tc .vmem S8192x128 .i32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S8192x128 .f32) (x1 : Vec F S8192x128 .i32) (xs0 : Vec F S1x1 .f32) :
    sout0_B_0 c i a1 h1 a2 h2 a3 h3 a4 h4 hc0 hc1 x0 x1 xs0 = k0_pay3 x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero zero_offsets]
  simp only [View.readAt_eq_ld, h1.read_unread, h2.read_unread, h4.read_unread,
    View.ld_unit_zero (S := S8192x128) zero_offsets, View.ld_unit_zero (S := S1x1) zero_offsets]

/-- The last point leaves the cell as a middle point does, -/
theorem cell_last (c : Dev nD) (i : grid0.Coords) (a1 : Memref sig .tc .vmem S8192x128 .f32) (h1 : a1.IsWhole)
    (a2 : Memref sig .tc .vmem S8192x128 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S8192x128 .f32) (x1 : Vec F S8192x128 .i32) (xs0 : Vec F S1x1 .f32) :
    sout0_C_0 c i a1 h1 a2 h2 a3 h3 a4 h4 hc0 hc1 x0 x1 xs0 = k0_pay3 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero zero_offsets]
  simp only [View.readAt_eq_ld, h1.read_unread, h2.read_unread, h4.read_unread,
    View.ld_unit_zero (S := S8192x128) zero_offsets, View.ld_unit_zero (S := S1x1) zero_offsets]

/-- and stores into the output block the cell's new value divided by 2^25. -/
theorem block_last (c : Dev nD) (i : grid0.Coords) (a1 : Memref sig .tc .vmem S8192x128 .f32) (h1 : a1.IsWhole)
    (a2 : Memref sig .tc .vmem S8192x128 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S8192x128 .f32) (x1 : Vec F S8192x128 .i32) (xs0 : Vec F S1x1 .f32) :
    out0_C_2 c i a1 h1 a2 h2 a3 h3 a4 h4 hc0 hc1 x0 x1 xs0 = k0_pay1 (k0_pay3 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero zero_offsets]
  simp only [View.readAt_eq_ld, h1.read_unread, h2.read_unread, h4.read_unread,
    View.ld_unit_zero (S := S8192x128) zero_offsets, View.ld_unit_zero (S := S1x1) zero_offsets,
    View.readCov_unit_zero (S := S1x1) _ zero_offsets]

end Cert.KernelIdeal.Carried

end
-- ==== Proof.Running.lean ====
/-
  The running total across the 32 grid points, and where it ends up.

  After point `n` the carried cell holds `running n`: the first slab's total added to zero, then one more
  slab's total per point. The output block is written once, at the last point, with the final total divided by
  2^25; it is the only block of the [1, 1] result array, which is then reshaped to the scalar result.
-/
import proofs.«165996_j76433237999935_1_alg».proof.Proof.Pieces
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Carried

open Cert.KernelIdeal Cert.KernelIdeal.Gen

variable {F : FTy → Type} [FloatOps F]
variable (m : (ℓ : Loc nD τ sig) → Buf (Elt F) ℓ) (ρ : Dev nD → PrngReg)

/-- Slab `t` of the outputs and of the labels, as the kernel's windows read them. -/
abbrev xblk (c : Dev nD) (t : Fin cfg0.N) : Vec F S8192x128 .f32 := iblk m c 0 t
abbrev lblk (c : Dev nD) (t : Fin cfg0.N) : Vec F S8192x128 .i32 := iblk m c 1 t

/-- The carried cell after point `n`. -/
def running (c : Dev nD) : (n : ℕ) → n < cfg0.N → Vec F S1x1 .f32
  | 0, h => k0_pay3 (xblk m c ⟨0, h⟩) (lblk m c ⟨0, h⟩) (k0_pay2 (F := F))
  | n + 1, h => k0_pay3 (xblk m c ⟨n + 1, h⟩) (lblk m c ⟨n + 1, h⟩) (running c n (Nat.lt_of_succ_lt h))

/-- Point by point, the cell holds the running total (induction on the point). -/
theorem cell_eq (c : Dev nD) : ∀ (n : ℕ) (h : n < cfg0.N), (outsAt0 m c n h).2 = running m c n h
  | 0, h => by
    rw [outsAt0_A m c ⟨0, h⟩ rfl (by dsimp only; omega)]
    dsimp only
    exact cell_first c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      refine (cell_last c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _
        (iblk m c 0 ⟨n + 1, h⟩) (iblk m c 1 ⟨n + 1, h⟩) _).trans ?_
      exact congrArg (k0_pay3 (xblk m c ⟨n + 1, h⟩) (lblk m c ⟨n + 1, h⟩)) (cell_eq c n (Nat.lt_of_succ_lt h))
    · rw [outsAt0_B m c ⟨n + 1, h⟩ h0 h1]
      dsimp only
      refine (cell_middle c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _
        (iblk m c 0 ⟨n + 1, h⟩) (iblk m c 1 ⟨n + 1, h⟩) _).trans ?_
      exact congrArg (k0_pay3 (xblk m c ⟨n + 1, h⟩) (lblk m c ⟨n + 1, h⟩)) (cell_eq c n (Nat.lt_of_succ_lt h))

/-- The last of the 32 points. -/
abbrev lastPt : Fin cfg0.N := ⟨31, by rw [show cfg0.N = 32 from N_0]; decide⟩

/-- What the [1, 1] result array ends holding: the final total divided by 2^25. -/
def quotient (c : Dev nD) : Buf (Elt F) ((c : Thread nD τ).loc main_v2) :=
  k0_pay1 (running m c lastPt.val lastPt.isLt)

/-- The output block after the last point. -/
theorem block_eq (c : Dev nD) : (outsAt0 m c lastPt.val lastPt.isLt).1 = quotient m c := by
  rw [outsAt0_C m c lastPt (by decide) rfl]
  dsimp only
  refine (block_last c (grid0.coords lastPt) (ms0_0 lastPt) (hs0_0 lastPt) (ms0_1 lastPt)
    (hs0_1 lastPt) (ms0_2 lastPt) (hs0_2 lastPt) scM0_0 (Memref.isWhole_whole _) _ _
    (iblk m c 0 lastPt) (iblk m c 1 lastPt) _).trans ?_
  exact congrArg (fun a => k0_pay1 (k0_pay3 (xblk m c lastPt) (lblk m c lastPt) a))
    (cell_eq m c 30 (Nat.lt_of_succ_lt lastPt.isLt))

/-- The one write-back, at the last point, writes it: the block is the whole [1, 1] array. -/
theorem flushed_eq (c : Dev nD) (t : Fin cfg0.N) (hf : (cfg0.win 2).flush t = true) :
    (dats m 0 c).flushed 2 t = ((cfg0.win 2).blk t).view.read (Elt F) (quotient m c) := by
  have hN : cfg0.N = 32 := N_0
  have h31 : t.val = 31 := by have := (flush0_2 t).mp hf; have := t.isLt; omega
  obtain rfl : t = lastPt := Fin.ext h31
  show (cfg0.win 2).cut (grid0.coords lastPt) ((dats m 0 c).after 2 lastPt) = _
  rw [after0_2, block_eq]
  have hz' : (fun a => win0_2.index lastPt a * main_v2.ty.shape.size a) = fun _ => 0 :=
    funext fun a => by fin_cases a <;> decide
  exact (Memref.read_access_unit_zero (Elt F) main_v2 hz' (fun a => by rw [congrFun hz' a]; simp) (quotient m c)).symm

/-- So the result array ends holding the quotient: the last point's block covers it. -/
theorem array_eq (c : Dev nD) : (dats m 0 c).arrAt 2 cfg0.N = quotient m c :=
  (dats m 0 c).arrAt_eq_of_cover 2 (quotient m c) (flushed_eq m c) fun i =>
    ⟨lastPt, (flush0_2 lastPt).mpr rfl, by
      show i ∈ ((View.whole main_v2).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPt 0 * win0_2.size 0 ≤ (i 0 : Nat)
          ∧ (i 0 : Nat) < win0_2.index lastPt 0 * win0_2.size 0 + win0_2.xsize (grid0.coords lastPt) 0
        rw [show win0_2.index lastPt 0 * win0_2.size 0 = 0 from by decide +kernel,
          show win0_2.xsize (grid0.coords lastPt) 0 = 1 from by decide +kernel]
        omega
      | ⟨1, _⟩ =>
        show win0_2.index lastPt 1 * win0_2.size 1 ≤ (i 1 : Nat)
          ∧ (i 1 : Nat) < win0_2.index lastPt 1 * win0_2.size 1 + win0_2.xsize (grid0.coords lastPt) 1
        rw [show win0_2.index lastPt 1 * win0_2.size 1 = 0 from by decide +kernel,
          show win0_2.xsize (grid0.coords lastPt) 1 = 1 from by decide +kernel]
        omega⟩

/-- The reshape after the region reads the scalar off the [1, 1] array. -/
theorem scalar_eq (c : Dev nD) :
    Pipeline.afterTail₀ cfgs (dats m) 0 (V0 m) [hostOps1] c main_v3
      = shapeCast S_ (quotient m c) shapeCasts_S1x1_S_ := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v2) = quotient m c :=
    (Pipeline.withArrays_arr spec0 launch0.win.arr_inj c (V0 m c) (fun w => (dats m 0 c).arrAt w cfg0.N) 2).trans
      (array_eq m c)
  funext i
  exact congrArg (fun f => shapeCast S_ f shapeCasts_S1x1_S_ i) e

/-- The kernel's run, read: the scalar result at the quotient, the arguments unchanged. -/
theorem run : θ_run defs (onTc (τ := τ) (main (F := F))) ⟨m, fun _ => 0, ρ⟩ fun r => ∀ c : Dev nD,
      r.2.mem ((c : Thread nD τ).loc main_v3) = shapeCast S_ (quotient m c) shapeCasts_S1x1_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (scalar_eq m c),
      ((h c).2 main_arg0 (Pipeline.mem_restRefs_of main_arg0 (by decide) (by decide))).trans
        (W_main_arg0 m (dats m) c),
      ((h c).2 main_arg1 (Pipeline.mem_restRefs_of main_arg1 (by decide) (by decide))).trans
        (W_main_arg1 m (dats m) c)⟩)
    (run_main m ρ)

end Cert.KernelIdeal.Carried

end
-- ==== Proof.MeanLoss.lean ====
/-
  The weighted binary cross-entropy of one element, and the two ways of adding 2^25 of them up.

  One element with output `x` and label `t` contributes `1 · (−log (x + ε))` when `t = 1` and
  `8 · (−log ((1 − x) + ε))` otherwise. A program that negates by `0 − y` and one that negates by `−y`
  compute the same extended real (`0 − y = −y` also at the infinities).

  The mean adds all 32 · 8192 · 128 = 2^25 contributions. Addition of extended reals is commutative and
  associative, so the total does not depend on the grouping: summing the flat array at once equals summing,
  for each of 32 slabs, over its 8192 rows, each row over its 128 lanes, where slab `t`, row `r`, lane `l`
  sits at flat position `(8192 t + r) · 128 + l`.
-/
import Idealize.ShloMosaic.Lib.ValueIdx
import Idealize.ShloMosaic.Lib.Pipeline.Value
import Idealize.ShloMosaic.Lib.KernelVsHost
import Idealize.ShloMosaic.PureOps.Ideal.Laws

noncomputable section

namespace Cert.MeanLoss

open Idealize.ShloMosaic Idealize.ShloMosaic.ValueIdx

/-! ## One element -/

/-- The contribution of one element: output `x`, label `t`. -/
def term (x : EReal) (t : BitVec 32) : EReal :=
  Scalar.select (IntOp.cmpi .eq t 1#32)
    (Ideal.ofBits .f32 0x3F800000#32 * -(Ideal.log (x + Ideal.ofBits .f32 0x33D6BF95#32)))
    (Ideal.ofBits .f32 0x41000000#32
      * -(Ideal.log (Ideal.ofBits .f32 0x3F800000#32 - x + Ideal.ofBits .f32 0x33D6BF95#32)))

/-- Negation spelt `0 − y`: the same contribution. -/
theorem term_of_zero_sub (x : EReal) (t : BitVec 32) :
    Scalar.select (IntOp.cmpi .eq t 1#32)
      (Ideal.ofBits .f32 0x3F800000#32
        * (Ideal.ofBits .f32 0x00000000#32 - Ideal.log (x + Ideal.ofBits .f32 0x33D6BF95#32)))
      (Ideal.ofBits .f32 0x41000000#32
        * (Ideal.ofBits .f32 0x00000000#32
          - Ideal.log (Ideal.ofBits .f32 0x3F800000#32 - x + Ideal.ofBits .f32 0x33D6BF95#32)))
      = term x t := by
  unfold term
  rw [Ideal.ofBits_zero_f32, zero_sub, zero_sub]

/-! ## The flat position of (slab, row, lane) -/

/-- Slab `t`, row `r`, lane `l` of the 2^25 elements. -/
def pos (t : Fin 32) (r : Fin 8192) (l : Fin 128) : Fin 33554432 :=
  ⟨(t.val * 8192 + r.val) * 128 + l.val, by have := t.isLt; have := r.isLt; have := l.isLt; omega⟩

theorem pos_val (t : Fin 32) (r : Fin 8192) (l : Fin 128) :
    (pos t r l).val = (t.val * 8192 + r.val) * 128 + l.val := rfl

/-- Every flat position is exactly one (slab, row, lane). -/
def posEquiv : (Fin 32 × Fin 8192) × Fin 128 ≃ Fin 33554432 :=
  ((finProdFinEquiv (m := 32) (n := 8192)).prodCongr (Equiv.refl (Fin 128))).trans
    ((finProdFinEquiv (m := 32 * 8192) (n := 128)).trans (finCongr (by norm_num)))

theorem posEquiv_apply (t : Fin 32) (r : Fin 8192) (l : Fin 128) : posEquiv ((t, r), l) = pos t r l := by
  apply Fin.ext
  simp only [posEquiv, Equiv.trans_apply, Equiv.prodCongr_apply, Prod.map_apply, Equiv.refl_apply,
    finProdFinEquiv_apply_val, finCongr_apply, Fin.val_cast, pos_val]
  omega

/-- A sum over all flat positions, regrouped slab by slab, row by row, lane by lane. -/
theorem sum_pos {M : Type*} [AddCommMonoid M] (g : Fin 33554432 → M) :
    ∑ n : Fin 33554432, g n = ∑ t : Fin 32, ∑ r : Fin 8192, ∑ l : Fin 128, g (pos t r l) := by
  rw [← posEquiv.sum_comp g, Fintype.sum_prod_type, Fintype.sum_prod_type]
  refine Finset.sum_congr rfl fun t _ => Finset.sum_congr rfl fun r _ => Finset.sum_congr rfl fun l _ => ?_
  rw [posEquiv_apply]

/-- A one-axis index is its coordinate. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (idxEquiv1.symm.sum_comp f).symm

/-- The sum over the flat array, regrouped. -/
theorem sum_flat {M : Type*} [AddCommMonoid M] (f : (⟨1, ![33554432]⟩ : Shape).Idx → M) :
    ∑ j, f j = ∑ t : Fin 32, ∑ r : Fin 8192, ∑ l : Fin 128, f (ix1 (pos t r l)) := by
  rw [sum_idx1, sum_pos]

/-! ## The mean -/

/-- The mean loss of outputs `x` and labels `lab`: every contribution, grouped by slab, row and lane, and the
    total divided by 2^25 (the word `0x4C000000`). -/
def mean (x : (⟨1, ![33554432]⟩ : Shape).Idx → EReal) (lab : (⟨1, ![33554432]⟩ : Shape).Idx → BitVec 32) :
    (⟨0, ![]⟩ : Shape).Idx → EReal := fun _ =>
  Ideal.div (∑ t : Fin 32, ∑ r : Fin 8192, ∑ l : Fin 128, term (x (ix1 (pos t r l))) (lab (ix1 (pos t r l))))
    (Ideal.ofBits .f32 0x4C000000#32)

end Cert.MeanLoss

end
-- ==== Proof.SlabTotal.lean ====
/-
  The total of one slab of 8192 rows by 128 lanes, added up in two stages: each row over its lanes, then the
  8192 row sums. Read at the extended reals each stage is a plain finite sum (the neutral accumulator is dropped),
  and the changes of shape between the stages ([8192] → [8192, 1], [1] → [1, 1]) only rename positions; so the
  one entry of the result is the double sum over rows and lanes.
-/
import Idealize.ShloMosaic.Lib.ValueIdx
import Idealize.ShloMosaic.Lib.Pipeline.Value
import Idealize.ShloMosaic.PureOps.Ideal.Laws

noncomputable section

namespace Cert.MeanLoss

open Idealize.ShloMosaic Idealize.ShloMosaic.ValueIdx

/-- The source index over row `r` with lane `l` inserted on axis 1 is (r, l). -/
theorem lift_lane (h : (⟨2, ![8192, 128]⟩ : Shape).Reduces [1] ⟨1, ![8192]⟩) (r : Fin 8192) (l : Fin 128) :
    h.lift (ix1 r) l = ix2 r l := by
  funext a
  apply Fin.ext
  match a with
  | ⟨0, _⟩ => rfl
  | ⟨1, _⟩ => rfl

/-- The source index over the one result position with row `r` inserted on axis 0 is (r, 0). -/
theorem lift_row (h : (⟨2, ![8192, 1]⟩ : Shape).Reduces [0] ⟨1, ![1]⟩) (j : (⟨1, ![1]⟩ : Shape).Idx) (r : Fin 8192) :
    h.lift j r = ix2 r (0 : Fin 1) := by
  funext a
  apply Fin.ext
  match a with
  | ⟨0, _⟩ => rfl
  | ⟨1, _⟩ =>
    have h0 : (j 0).val = 0 := by have := (j 0).isLt; simp at this; omega
    show (j 0).val = 0
    exact h0

/-- Lanes first, then rows: the one entry is the sum over every (row, lane). -/
theorem slab_total (v : FVec Ideal ⟨2, ![8192, 128]⟩ .f32)
    (hR1 : (⟨2, ![8192, 128]⟩ : Shape).Reduces [1] ⟨1, ![8192]⟩)
    (hc1 : (⟨1, ![8192]⟩ : Shape).ShapeCasts ⟨2, ![8192, 1]⟩)
    (hR2 : (⟨2, ![8192, 1]⟩ : Shape).Reduces [0] ⟨1, ![1]⟩)
    (hc2 : (⟨1, ![1]⟩ : Shape).ShapeCasts ⟨2, ![1, 1]⟩)
    (hφ1 hφ2 : FKind.Formats .f32)
    (ha1 : (0x00000000#32 : BitVec 32) = FKind.add.neutral .f32 hφ1)
    (ha2 : (0x00000000#32 : BitVec 32) = FKind.add.neutral .f32 hφ2)
    (j : (⟨2, ![1, 1]⟩ : Shape).Idx) :
    shapeCast ⟨2, ![1, 1]⟩
        (multiReduction .add [0] ⟨1, ![1]⟩
          (shapeCast ⟨2, ![8192, 1]⟩ (multiReduction .add [1] ⟨1, ![8192]⟩ v 0x00000000#32 hR1 hφ1 ha1) hc1)
          0x00000000#32 hR2 hφ2 ha2) hc2 j
      = ∑ r : Fin 8192, ∑ l : Fin 128, v (ix2 r l) := by
  have hj0 : (j 0).val = 0 := by have := (j 0).isLt; simp at this; omega
  have hj1 : (j 1).val = 0 := by have := (j 1).isLt; simp at this; omega
  refine (shapeCast_apply _ hc2 j (ix1 (0 : Fin 1)) (by
    rw [Shape.rowMajor_val_one, Shape.rowMajor_val_two, hj0, hj1]; rfl)).trans ?_
  refine (Ideal.multiReduction_add_single _ _ hR2 hφ2 ha2 (ix1 (0 : Fin 1))).trans ?_
  refine Finset.sum_congr rfl fun r _ => ?_
  rw [lift_row hR2 _ r]
  refine (shapeCast_apply _ hc1 (ix2 r (0 : Fin 1)) (ix1 r) (by
    rw [Shape.rowMajor_val_one, Shape.rowMajor_val_two]; show r.val = r.val * 1 + 0; omega)).trans ?_
  refine (Ideal.multiReduction_add_single v _ hR1 hφ1 ha1 (ix1 r)).trans ?_
  refine Finset.sum_congr rfl fun l _ => ?_
  rw [lift_lane hR1 r l]

end Cert.MeanLoss

end
-- ==== Proof.KernelMean.lean ====
/-
  The kernel's scalar is the mean loss.

  Slab `t` as a window reads it is rows 8192 t … 8192 t + 8191 of the [262144, 128] arrays, which are the flat
  arguments reshaped: its entry (r, l) is the flat entry at position (8192 t + r) · 128 + l. One point adds to the
  cell the slab's contributions, lanes first and then rows; so after point `n` the cell holds the sum of the
  contributions of slabs 0 … n, and after the last point the sum over all 32 slabs. The output is that total
  divided by 2^25, which is the mean.
-/
import proofs.«165996_j76433237999935_1_alg».proof.Proof.Running
import proofs.«165996_j76433237999935_1_alg».proof.Proof.MeanLoss
import proofs.«165996_j76433237999935_1_alg».proof.Proof.SlabTotal
import Idealize.ShloMosaic.Lib.ValueIdx

noncomputable section

open Idealize.ShloMosaic Idealize.ShloMosaic.TcCoe Idealize.SL.Sem
open Idealize.ShloMosaic.ValueIdx

namespace Cert.KernelIdeal.Carried

open Cert.KernelIdeal Cert.KernelIdeal.Gen Cert.MeanLoss

/-! ## Where a slab's entry sits in the flat arguments (any float family) -/

section Layout

variable {F : FTy → Type} [FloatOps F]
variable (m : (ℓ : Loc nD τ sig) → Buf (Elt F) ℓ)

/-- Both input windows walk the rows: block index (t, 0) at point `t`. -/
theorem rows_index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem rows_index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The [262144, 128] arrays the region finds are the flat arguments reshaped. -/
theorem outputs_reshaped (c : Dev nD) :
    (V m c main_v0 : S262144x128.Idx → F .f32)
      = shapeCast S262144x128 (m ((c : Thread nD τ).loc main_arg0)) shapeCasts_S33554432_S262144x128 := by
  show StableHlo.after hostOps0 (fun b => m (c, b)) (Proc.devRef .tc main_v0) = _
  after_results
  rfl
theorem labels_reshaped (c : Dev nD) :
    (V m c main_v1 : S262144x128.Idx → BitVec 32)
      = shapeCast S262144x128 (m ((c : Thread nD τ).loc main_arg1)) shapeCasts_S33554432_S262144x128 := by
  show StableHlo.after hostOps0 (fun b => m (c, b)) (Proc.devRef .tc main_v1) = _
  after_results
  rfl

/-- Row `R`, lane `l` of the reshaped array is flat entry `128 R + l`. -/
theorem reshaped_apply {α : Type} (x : S33554432.Idx → α) (R : Fin 262144) (l : Fin 128) (n : Fin 33554432)
    (hn : n.val = R.val * 128 + l.val) :
    shapeCast S262144x128 x shapeCasts_S33554432_S262144x128 (ix2 R l) = x (ix1 n) :=
  shapeCast_apply x shapeCasts_S33554432_S262144x128 (ix2 R l) (ix1 n) (by
    rw [Shape.rowMajor_val_one, Shape.rowMajor_val_two]; exact hn)

/-- Entry (r, l) of slab `t` of the outputs is row `8192 t + r` of the array; -/
theorem xblk_row (c : Dev nD) (t : Fin cfg0.N) (r : Fin 8192) (l : Fin 128) (R : Fin 262144)
    (hR : R.val = t.val * 8192 + r.val) : xblk m c t (ix2 r l) = V m c main_v0 (ix2 R l) := by
  unfold xblk iblk
  rw [View.read_apply]
  show V m c main_v0 (((cfg0.win 0).blk t).view.emb (ix2 r l)) = V m c main_v0 (ix2 R l)
  refine congrArg (V m c main_v0) (funext fun a => Fin.ext ?_)
  match a with
  | ⟨0, _⟩ => show win0_0.index t 0 * 8192 + 1 * r.val = R.val; rw [(rows_index0 t).1]; omega
  | ⟨1, _⟩ => show win0_0.index t 1 * 128 + 1 * l.val = l.val; rw [(rows_index0 t).2]; omega
/-- the same for the labels. -/
theorem lblk_row (c : Dev nD) (t : Fin cfg0.N) (r : Fin 8192) (l : Fin 128) (R : Fin 262144)
    (hR : R.val = t.val * 8192 + r.val) : lblk m c t (ix2 r l) = V m c main_v1 (ix2 R l) := by
  unfold lblk iblk
  rw [View.read_apply]
  show V m c main_v1 (((cfg0.win 1).blk t).view.emb (ix2 r l)) = V m c main_v1 (ix2 R l)
  refine congrArg (V m c main_v1) (funext fun a => Fin.ext ?_)
  match a with
  | ⟨0, _⟩ => show win0_1.index t 0 * 8192 + 1 * r.val = R.val; rw [(rows_index1 t).1]; omega
  | ⟨1, _⟩ => show win0_1.index t 1 * 128 + 1 * l.val = l.val; rw [(rows_index1 t).2]; omega

/-- So entry (r, l) of slab `t` is the flat entry at `pos t r l`. -/
theorem xblk_flat (c : Dev nD) (t : Fin cfg0.N) (ht : t.val < 32) (r : Fin 8192) (l : Fin 128) :
    xblk m c t (ix2 r l) = m ((c : Thread nD τ).loc main_arg0) (ix1 (pos ⟨t.val, ht⟩ r l)) := by
  have hR : t.val * 8192 + r.val < 262144 := by have := r.isLt; omega
  refine (xblk_row m c t r l ⟨t.val * 8192 + r.val, hR⟩ rfl).trans ?_
  rw [outputs_reshaped]
  exact reshaped_apply _ ⟨t.val * 8192 + r.val, hR⟩ l (pos ⟨t.val, ht⟩ r l) rfl
theorem lblk_flat (c : Dev nD) (t : Fin cfg0.N) (ht : t.val < 32) (r : Fin 8192) (l : Fin 128) :
    lblk m c t (ix2 r l) = m ((c : Thread nD τ).loc main_arg1) (ix1 (pos ⟨t.val, ht⟩ r l)) := by
  have hR : t.val * 8192 + r.val < 262144 := by have := r.isLt; omega
  refine (lblk_row m c t r l ⟨t.val * 8192 + r.val, hR⟩ rfl).trans ?_
  rw [labels_reshaped]
  exact reshaped_apply _ ⟨t.val * 8192 + r.val, hR⟩ l (pos ⟨t.val, ht⟩ r l) rfl

end Layout

/-! ## The arithmetic, over the extended reals -/

/-- One point's update of the cell: what it held plus every contribution of the slab. -/
theorem update_apply (x0 : Vec Ideal S8192x128 .f32) (x1 : Vec Ideal S8192x128 .i32) (acc : Vec Ideal S1x1 .f32)
    (j : S1x1.Idx) :
    k0_pay3 (F := Ideal) x0 x1 acc j
      = acc j + ∑ r : Fin 8192, ∑ l : Fin 128, term (x0 (ix2 r l)) (x1 (ix2 r l)) := by
  unfold k0_pay3
  simp only [shapeCast_self]
  refine (addf_apply _ _ j).trans ?_
  refine congrArg (acc j + ·) ?_
  refine (slab_total _ _ _ _ _ _ _ _ _ j).trans ?_
  refine Finset.sum_congr rfl fun r _ => Finset.sum_congr rfl fun l _ => ?_
  exact term_of_zero_sub (x0 (ix2 r l)) (x1 (ix2 r l))

/-- The cell's reset value is zero. -/
theorem reset_apply (j : S1x1.Idx) : k0_pay2 (F := Ideal) j = 0 := by
  unfold k0_pay2
  simp only [shapeCast_self]
  exact Ideal.ofBits_zero_f32

/-- The last point's output: the cell divided by 2^25. -/
theorem output_apply (acc : Vec Ideal S1x1 .f32) (j : S1x1.Idx) :
    k0_pay1 (F := Ideal) acc j = Ideal.div (acc j) (Ideal.ofBits .f32 0x4C000000#32) := rfl

variable (m : (ℓ : Loc nD τ sig) → Buf (Elt Ideal) ℓ)

/-- The contributions of slab `k` (nothing beyond the 32 slabs). -/
def slab (c : Dev nD) (k : ℕ) : EReal :=
  if hk : k < 32 then
    ∑ r : Fin 8192, ∑ l : Fin 128, term (m ((c : Thread nD τ).loc main_arg0) (ix1 (pos ⟨k, hk⟩ r l)))
      (m ((c : Thread nD τ).loc main_arg1) (ix1 (pos ⟨k, hk⟩ r l)))
  else 0

/-- What a point adds is its slab's contributions. -/
theorem added_eq (c : Dev nD) (t : Fin cfg0.N) :
    (∑ r : Fin 8192, ∑ l : Fin 128, term (xblk m c t (ix2 r l)) (lblk m c t (ix2 r l))) = slab m c t.val := by
  have ht : t.val < 32 := lt_of_lt_of_eq t.isLt (show cfg0.N = 32 from N_0)
  rw [slab, dif_pos ht]
  refine Finset.sum_congr rfl fun r _ => Finset.sum_congr rfl fun l _ => ?_
  rw [xblk_flat m c t ht r l, lblk_flat m c t ht r l]

/-- After point `n` the cell holds the contributions of slabs 0 … n. -/
theorem running_apply (c : Dev nD) (j : S1x1.Idx) :
    ∀ (n : ℕ) (h : n < cfg0.N), running m c n h j = ∑ k ∈ Finset.range (n + 1), slab m c k
  | 0, h => by
    show k0_pay3 (F := Ideal) (xblk m c ⟨0, h⟩) (lblk m c ⟨0, h⟩) (k0_pay2 (F := Ideal)) j = _
    rw [update_apply, reset_apply, zero_add, added_eq m c ⟨0, h⟩, Finset.sum_range_one]
  | n + 1, h => by
    show k0_pay3 (F := Ideal) (xblk m c ⟨n + 1, h⟩) (lblk m c ⟨n + 1, h⟩) (running m c n (Nat.lt_of_succ_lt h)) j = _
    rw [update_apply, running_apply c j n (Nat.lt_of_succ_lt h), added_eq m c ⟨n + 1, h⟩,
      Finset.sum_range_succ _ (n + 1)]

/-- The kernel's scalar result is the mean of the flat arguments. -/
theorem scalar_mean (c : Dev nD) :
    shapeCast S_ (quotient m c) shapeCasts_S1x1_S_
      = mean (m ((c : Thread nD τ).loc main_arg0)) (m ((c : Thread nD τ).loc main_arg1)) := by
  funext i
  refine (shapeCast_apply _ shapeCasts_S1x1_S_ i (ix2 (0 : Fin 1) (0 : Fin 1)) (by
    rw [Shape.rowMajor_val_two]
    show (0 : ℕ) * 1 + 0 = (Shape.rowMajorPi S_.size i).val
    rw [Shape.rowMajorPi_zero])).trans ?_
  show k0_pay1 (F := Ideal) (running m c lastPt.val lastPt.isLt) (ix2 (0 : Fin 1) (0 : Fin 1)) = _
  rw [output_apply, running_apply m c _ 31 lastPt.isLt]
  unfold mean
  refine congrArg (fun s => Ideal.div s (Ideal.ofBits .f32 0x4C000000#32)) ?_
  rw [← Fin.sum_univ_eq_sum_range (fun k => slab m c k) 32]
  refine Finset.sum_congr rfl fun t _ => ?_
  rw [slab, dif_pos t.isLt]

end Cert.KernelIdeal.Carried

end
-- ==== Proof.RefMean.lean ====
/-
  The reference's result is the mean loss.

  The reference computes, element by element over the flat array, the weighted loss (negating with the host's
  negate), adds all 2^25 of them to a zero initial value in one reduction, and divides by 2^25. Read at the
  extended reals the reduction is the plain sum, which regroups by slab, row and lane.
-/
import proofs.«165996_j76433237999935_1_alg».proof.Proof.Gen.ReferenceIdeal.Read
import proofs.«165996_j76433237999935_1_alg».proof.Proof.MeanLoss

noncomputable section

namespace Cert.ReferenceIdeal.Mean

open Cert.ReferenceIdeal Cert.ReferenceIdeal.Gen Cert.ReferenceIdeal.Read
open Idealize.ShloMosaic Idealize.ShloMosaic.ValueIdx Cert.MeanLoss

/-- The selected loss at one element. -/
theorem loss_apply (x0 : (⟨S33554432, .f32⟩ : BufTy).Contents (Elt Ideal))
    (x1 : (⟨S33554432, .i32⟩ : BufTy).Contents (Elt Ideal)) (j : S33554432.Idx) :
    val_main_v16 (F := Ideal) x0 x1 j = term (x0 j) (x1 j) := by
  simp only [val_main_v16_apply, val_main_v15_apply, val_main_v14_apply, val_main_c_apply, val_main_v5_apply,
    val_main_v4_apply, val_main_cst_0_apply, val_main_v3_apply, val_main_v2_apply, val_main_v1_apply,
    val_main_v0_apply, val_main_cst_apply, val_main_v13_apply, val_main_v12_apply, val_main_cst_3_apply,
    val_main_v11_apply, val_main_v10_apply, val_main_v9_apply, val_main_v7_apply, val_main_v6_apply,
    val_main_cst_1_apply, val_main_v8_apply, val_main_cst_2_apply]
  simp only [Ideal.ofBits_def, Ideal.addf_def, Ideal.subf_def, Ideal.mulf_def, Ideal.hostNegf_def,
    Ideal.negf_def, Ideal.hostUnary_log_def]
  rfl

/-- The reference's scalar is the mean. -/
theorem result_eq (x0 : (⟨S33554432, .f32⟩ : BufTy).Contents (Elt Ideal))
    (x1 : (⟨S33554432, .i32⟩ : BufTy).Contents (Elt Ideal)) :
    val_main_v18 (F := Ideal) x0 x1 = mean x0 x1 := by
  funext i
  rw [val_main_v18_apply, val_main_v17_apply, val_main_cst_4_apply, val_main_cst_5_apply]
  simp only [loss_apply]
  rw [sum_flat]
  simp only [Ideal.ofBits_def, Ideal.hostDivf_def, Ideal.ofBits_zero_f32, zero_add]
  rfl

end Cert.ReferenceIdeal.Mean

end
-- ==== Proof.lean ====
/-
  The weighted binary cross-entropy, mean-reduced over 2^25 elements: a tiled kernel against the flat reference.

  Both programs compute, for every element with output `x` and label `t`, the contribution
  `1 · (−log (x + ε))` if `t = 1` and `8 · (−log ((1 − x) + ε))` otherwise, add all contributions, and divide by
  2^25. The kernel walks 32 slabs of 8192 rows by 128 lanes of the reshaped arguments, adds each slab's
  contributions (lanes, then rows) to one carried cell that it resets at the first slab, and writes the cell
  divided by 2^25 after the last slab; the reference adds the flat array in one reduction. Over the extended
  reals addition is commutative and associative, so the two totals are the same sum regrouped, and `0 − y` (the
  kernel's negation) is `−y` (the reference's): both results are `Cert.MeanLoss.mean` of the arguments. No
  finiteness of the inputs is used.

  Proof/MeanLoss.lean: one contribution, the flat position of (slab, row, lane), the regrouped sum, the mean.
  Proof/SlabTotal.lean: a slab's two-stage total is the double sum. Proof/Pieces.lean, Proof/Running.lean: what
  each grid point leaves in the cell and in the output block, the running total by induction on the point, the
  result array and the scalar read off it. Proof/KernelMean.lean: that scalar is the mean.
  Proof/RefMean.lean: the reference's scalar is the mean.
-/
import proofs.«165996_j76433237999935_1_alg».proof.Defs
import proofs.«165996_j76433237999935_1_alg».proof.Proof.Gen.Kernel
import proofs.«165996_j76433237999935_1_alg».proof.Proof.Gen.Kernel.Skeleton
import proofs.«165996_j76433237999935_1_alg».proof.Proof.Gen.Kernel.Launch
import proofs.«165996_j76433237999935_1_alg».proof.Proof.Gen.Kernel.Points
import proofs.«165996_j76433237999935_1_alg».proof.Proof.Gen.Kernel.Frame
import proofs.«165996_j76433237999935_1_alg».proof.Proof.Gen.KernelIdeal
import proofs.«165996_j76433237999935_1_alg».proof.Proof.Gen.KernelIdeal.Skeleton
import proofs.«165996_j76433237999935_1_alg».proof.Proof.Gen.KernelIdeal.Launch
import proofs.«165996_j76433237999935_1_alg».proof.Proof.Gen.KernelIdeal.Points
import proofs.«165996_j76433237999935_1_alg».proof.Proof.Gen.KernelIdeal.Frame
import proofs.«165996_j76433237999935_1_alg».proof.Proof.Gen.ReferenceIdeal
import proofs.«165996_j76433237999935_1_alg».proof.Proof.Gen.ReferenceIdeal.Run
import proofs.«165996_j76433237999935_1_alg».proof.Proof.Gen.ReferenceIdeal.Read
import proofs.«165996_j76433237999935_1_alg».proof.Proof.Gen.Pre_finite_inputs
import proofs.«165996_j76433237999935_1_alg».proof.Proof.KernelMean
import proofs.«165996_j76433237999935_1_alg».proof.Proof.RefMean
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree both programs end with the mean loss of those arguments. -/
theorem algebraic : Cert.algebraic_KernelIdeal_ReferenceIdeal := by
  intro m ρ m' ρ' _ hagree
  refine ⟨fun c => Cert.MeanLoss.mean
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Carried.scalar_mean m c), (h c).2⟩)
      (Cert.KernelIdeal.Carried.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v18_eq, Cert.ReferenceIdeal.Mean.result_eq,
      (hagree c).1, (hagree c).2]

theorem claim : Cert.Claim :=
  ⟨Cert.Kernel.Gen.facts, Cert.KernelIdeal.Gen.facts, Cert.ReferenceIdeal.Gen.facts,
    Cert.Pre_finite_inputs.Gen.facts, frame_kernel, frame_ideal, frame_reference, preserves, algebraic⟩

end Cert.Proof

end
